-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x64 : Shape := ⟨2, ![256, 64]⟩
abbrev S1x64 : Shape := ⟨2, ![1, 64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  main_v53

def fn_part2 {F : FTy → Type} [FloatOps F] (main_arg7 : FVec F S1x64 .f32) (main_arg8 : FVec F S1x64 .f32) (main_arg9 : FVec F S256x64 .f32) (main_arg10 : FVec F S1x64 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S256x64 .f32 := Host.absf main_arg9
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_v48 main_v49 main_v50

def fn_part1 {F : FTy → Type} [FloatOps F] (main_arg4 : FVec F S256x64 .f32) (main_arg5 : FVec F S1x64 .f32) (main_arg6 : FVec F S1x64 .f32) (main_arg7 : FVec F S1x64 .f32) (main_arg8 : FVec F S1x64 .f32) (main_arg9 : FVec F S256x64 .f32) (main_arg10 : FVec F S1x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x256 .f32) (main_arg1 : FVec F S256x64 .f32) (main_arg2 : FVec F S256x64 .f32) (main_arg3 : FVec F S256x64 .f32) (main_arg4 : FVec F S256x64 .f32) (main_arg5 : FVec F S1x64 .f32) (main_arg6 : FVec F S1x64 .f32) (main_arg7 : FVec F S1x64 .f32) (main_arg8 : FVec F S1x64 .f32) (main_arg9 : FVec F S256x64 .f32) (main_arg10 : FVec F S1x64 .f32) (main_arg11 : IVec S800000 32) (main_arg12 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_arg7 main_arg8 main_arg9 main_arg10 main_v13 main_v16
-- ==== Kernel.lean ====
abbrev S50000x256 : Shape := ⟨2, ![50000, 256]⟩
abbrev S256x64 : Shape := ⟨2, ![256, 64]⟩
abbrev S1x64 : Shape := ⟨2, ![1, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x256 : Shape := ⟨2, ![5000, 256]⟩
abbrev S5000x1 : Shape := ⟨2, ![5000, 1]⟩
abbrev S5000x64 : Shape := ⟨2, ![5000, 64]⟩
abbrev S800000x64 : Shape := ⟨2, ![800000, 64]⟩

abbrev nBuf : Space → Nat
  | .hbm => 105
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S256x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S256x64, .f32⟩
  | .hbm, ⟨10, _⟩ => ⟨S1x64, .f32⟩
  | .hbm, ⟨11, _⟩ => ⟨S800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S256x64, .f32⟩
  | .hbm, ⟨38, _⟩ => ⟨S256x64, .f32⟩
  | .hbm, ⟨39, _⟩ => ⟨S256x64, .f32⟩
  | .hbm, ⟨40, _⟩ => ⟨S_, .f32⟩
  | .hbm, ⟨41, _⟩ => ⟨S256x64, .f32⟩
  | .hbm, ⟨42, _⟩ => ⟨S256x64, .f32⟩
  | .hbm, ⟨43, _⟩ => ⟨S256x64, .f32⟩
  | .hbm, ⟨44, _⟩ => ⟨S_, .f32⟩
  | .hbm, ⟨45, _⟩ => ⟨S256x64, .f32⟩
  | .hbm, ⟨46, _⟩ => ⟨S256x64, .f32⟩
  | .hbm, ⟨47, _⟩ => ⟨S256x64, .f32⟩
  | .hbm, ⟨48, _⟩ => ⟨S256x64, .f32⟩
  | .hbm, ⟨49, _⟩ => ⟨S256x64, .f32⟩
  | .hbm, ⟨50, _⟩ => ⟨S256x64, .f32⟩
  | .hbm, ⟨51, _⟩ => ⟨S256x64, .f32⟩
  | .hbm, ⟨52, _⟩ => ⟨S_, .f32⟩
  | .hbm, ⟨53, _⟩ => ⟨S256x64, .f32⟩
  | .hbm, ⟨54, _⟩ => ⟨S256x64, .f32⟩
  | .hbm, ⟨55, _⟩ => ⟨S256x64, .f32⟩
  | .hbm, ⟨56, _⟩ => ⟨S256x64, .f32⟩
  | .hbm, ⟨57, _⟩ => ⟨S_, .f32⟩
  | .hbm, ⟨58, _⟩ => ⟨S256x64, .f32⟩
  | .hbm, ⟨59, _⟩ => ⟨S256x64, .f32⟩
  | .hbm, ⟨60, _⟩ => ⟨S_, .f32⟩
  | .hbm, ⟨61, _⟩ => ⟨S_, .f32⟩
  | .hbm, ⟨62, _⟩ => ⟨S50000x1, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S_, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S_, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S_, .f32⟩
  | .hbm, ⟨98, _⟩ => ⟨S1x64, .f32⟩
  | .hbm, ⟨99, _⟩ => ⟨S1x64, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S50000x1, .f32⟩
  | .hbm, ⟨104, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_v9 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v10 : Ref sig .tc := ⟨.hbm, 33, rfl⟩
abbrev main_cst_5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_6 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_7 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_8 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_9 : Ref sig .tc := ⟨.hbm, 57, rfl⟩
abbrev main_v30 : Ref sig .tc := ⟨.hbm, 58, rfl⟩
abbrev main_v31 : Ref sig .tc := ⟨.hbm, 59, rfl⟩
abbrev main_cst_10 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c : Ref sig .tc := ⟨.hbm, 64, rfl⟩
abbrev main_v35 : Ref sig .tc := ⟨.hbm, 65, rfl⟩
abbrev main_v36 : Ref sig .tc := ⟨.hbm, 66, rfl⟩
abbrev main_c_11 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_13 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_14 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_15 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_v63 : Ref sig .tc := ⟨.hbm, 99, rfl⟩
abbrev main_cst_17 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S256x64 : S_.BroadcastsInDim S256x64 (![] : Fin 0 → Fin S256x64.rank)
  reducesTo_S256x64_S_d0_1 : S256x64.ReducesTo [0, 1] S_
  h_S_ : 0 < S_.numel
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S_S1x64 : S_.BroadcastsInDim S1x64 (![] : Fin 0 → Fin S1x64.rank)
  reducesTo_S1x64_S_d0_1 : S1x64.ReducesTo [0, 1] S_
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x64 : Shape := ⟨2, ![256, 64]⟩
abbrev S1x64 : Shape := ⟨2, ![1, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩

abbrev nBuf : Space → Nat
  | .hbm => 110
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S256x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S256x64, .f32⟩
  | .hbm, ⟨10, _⟩ => ⟨S1x64, .f32⟩
  | .hbm, ⟨11, _⟩ => ⟨S800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .f32⟩
  | .hbm, ⟨32, _⟩ => ⟨S50000x256, .f32⟩
  | .hbm, ⟨33, _⟩ => ⟨S256x64, .f32⟩
  | .hbm, ⟨34, _⟩ => ⟨S256x64, .f32⟩
  | .hbm, ⟨35, _⟩ => ⟨S256x64, .f32⟩
  | .hbm, ⟨36, _⟩ => ⟨S_, .f32⟩
  | .hbm, ⟨37, _⟩ => ⟨S256x64, .f32⟩
  | .hbm, ⟨38, _⟩ => ⟨S256x64, .f32⟩
  | .hbm, ⟨39, _⟩ => ⟨S256x64, .f32⟩
  | .hbm, ⟨40, _⟩ => ⟨S_, .f32⟩
  | .hbm, ⟨41, _⟩ => ⟨S256x64, .f32⟩
  | .hbm, ⟨42, _⟩ => ⟨S256x64, .f32⟩
  | .hbm, ⟨43, _⟩ => ⟨S256x64, .f32⟩
  | .hbm, ⟨44, _⟩ => ⟨S256x64, .f32⟩
  | .hbm, ⟨45, _⟩ => ⟨S256x64, .f32⟩
  | .hbm, ⟨46, _⟩ => ⟨S256x64, .f32⟩
  | .hbm, ⟨47, _⟩ => ⟨S256x64, .f32⟩
  | .hbm, ⟨48, _⟩ => ⟨S_, .f32⟩
  | .hbm, ⟨49, _⟩ => ⟨S256x64, .f32⟩
  | .hbm, ⟨50, _⟩ => ⟨S256x64, .f32⟩
  | .hbm, ⟨51, _⟩ => ⟨S256x64, .f32⟩
  | .hbm, ⟨52, _⟩ => ⟨S256x64, .f32⟩
  | .hbm, ⟨53, _⟩ => ⟨S_, .f32⟩
  | .hbm, ⟨54, _⟩ => ⟨S256x64, .f32⟩
  | .hbm, ⟨55, _⟩ => ⟨S256x64, .f32⟩
  | .hbm, ⟨56, _⟩ => ⟨S_, .f32⟩
  | .hbm, ⟨57, _⟩ => ⟨S_, .f32⟩
  | .hbm, ⟨58, _⟩ => ⟨S50000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S_, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x64, .f32⟩
  | .hbm, ⟨81, _⟩ => ⟨S50000x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S_, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S_, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S_, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S_, .f32⟩
  | .hbm, ⟨103, _⟩ => ⟨S1x64, .f32⟩
  | .hbm, ⟨104, _⟩ => ⟨S1x64, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S50000x64, .f32⟩
  | .hbm, ⟨109, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_c : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_call1_v0 : Ref sig .tc := ⟨.hbm, 73, rfl⟩
abbrev main_call1_v1 : Ref sig .tc := ⟨.hbm, 74, rfl⟩
abbrev main_v44 : Ref sig .tc := ⟨.hbm, 75, rfl⟩
abbrev main_cst_12 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_14 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_16 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S256x64 : S_.BroadcastsInDim S256x64 (![] : Fin 0 → Fin S256x64.rank)
  reducesTo_S256x64_S_d0_1 : S256x64.ReducesTo [0, 1] S_
  h_S_ : 0 < S_.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S1x64 : S_.BroadcastsInDim S1x64 (![] : Fin 0 → Fin S1x64.rank)
  reducesTo_S1x64_S_d0_1 : S1x64.ReducesTo [0, 1] S_
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The two dense pieces of the graph convolution, as functions of whole arrays, entry by entry, on the extended reals.

  * `scaledProduct A n W`: row `p` of `A` is scaled by the row's factor `n (p, 0)` and multiplied into `W`:
    entry `(p, q)` is the sum over the 256 inner positions `k` of `(A (p, k) · n (p, 0)) · W (k, q)`.
  * `scaleShift X n b`: entry `(p, q)` of `X` is scaled by the row's factor `n (p, 0)` and shifted by the
    column's offset `b (0, q)`.

  Both sides of the certificate compute these two functions; everything between them (the gather of rows along
  the edges' sources and the scatter-add along their targets) is one and the same host operation on both sides.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals with literal extents. -/
abbrev Mat (r c : Nat) : Type := (⟨2, ![r, c]⟩ : Shape).Idx → EReal

/-- Entry `(p, q)`: the sum over `k` of `(A (p, k) · n (p, 0)) · W (k, q)`. -/
def scaledProductAt (A : Mat 50000 256) (n : Mat 50000 1) (W : Mat 256 64) (p : Fin 50000) (q : Fin 64) : EReal :=
  ∑ k : Fin 256, (A (ix2 p k) * n (ix2 p (0 : Fin 1))) * W (ix2 k q)

/-- The rows of `A`, each scaled by its own factor, times `W`. -/
def scaledProduct (A : Mat 50000 256) (n : Mat 50000 1) (W : Mat 256 64) : Mat 50000 64 :=
  fun i => scaledProductAt A n W (i 0) (i 1)

/-- Entry `(p, q)`: `X (p, q) · n (p, 0) + b (0, q)`. -/
def scaleShiftAt (X : Mat 50000 64) (n : Mat 50000 1) (b : Mat 1 64) (p : Fin 50000) (q : Fin 64) : EReal :=
  X (ix2 p q) * n (ix2 p (0 : Fin 1)) + b (ix2 (0 : Fin 1) q)

/-- The rows of `X`, each scaled by its own factor, plus the row vector `b`. -/
def scaleShift (X : Mat 50000 64) (n : Mat 50000 1) (b : Mat 1 64) : Mat 50000 64 :=
  fun i => scaleShiftAt X n b (i 0) (i 1)

theorem scaledProduct_apply (A : Mat 50000 256) (n : Mat 50000 1) (W : Mat 256 64) (p : Fin 50000) (q : Fin 64) :
    scaledProduct A n W (ix2 p q) = scaledProductAt A n W p q := rfl

theorem scaleShift_apply (X : Mat 50000 64) (n : Mat 50000 1) (b : Mat 1 64) (p : Fin 50000) (q : Fin 64) :
    scaleShift X n b (ix2 p q) = scaleShiftAt X n b p q := rfl

end Cert.Spec

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Region0.lean ====
/-
  Region 0's output array, entry by entry.

  The grid has ten points. Point `t` reads rows `5000 t … 5000 t + 4999` of the first operand `[50000, 256]`, the same
  rows of the column of row factors `[50000, 1]`, and the whole weight `[256, 64]`, and writes rows `5000 t …` of the
  output `[50000, 64]`. Its body scales each row of its block of the first operand by the row's factor and multiplies the
  scaled block into the weight, from a zero accumulator.

  * `payload_apply`: the body's product at an entry `(p, q)` of a block is the sum over the 256 inner positions `k` of
    `(x0 (p, k) · x1 (p, 0)) · x2 (k, q)`.
  * `payload_eq_spec`: when the three blocks are those rows of three arrays, that sum is the specification's entry
    `(5000 t + p, q)`; it depends on row `5000 t + p` of the first operand, the factor of that row, and column `q` of the weight.
  * `block0_apply`, `block1_apply`, `block2_apply`: the blocks the ten points read are those rows.
  * `flushed_eq`: what point `t` writes back is block `t` of the specification's array.
  * `covered`: row `r` of the output is in the block of point `r / 5000`, so the ten blocks cover the output.
  * `region0_final`: so the output array ends as the specification's array.
-/
import proofs.«132637_j26998164422989_1_alg».proof.Proof.Gen.KernelIdeal.Frame
import proofs.«132637_j26998164422989_1_alg».proof.Proof.Spec
import proofs.«132637_j26998164422989_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val0

open Idealize.ShloMosaic Idealize.ShloMosaic.TcCoe Idealize.SL.Sem
open Idealize.ShloMosaic.Pipeline (Dat Cfg Window)
open Idealize.ShloMosaic.ValueIdx
open Cert.KernelIdeal Cert.KernelIdeal.Gen

theorem zero_offsets : (![0, 0] : Fin 2 → Nat) = fun _ => 0 := funext fun a => by fin_cases a <;> rfl

/-- The body's product at the entry `(p, q)` of a block: the sum over the 256 inner positions `k` of the first
    operand's entry `(p, k)`, scaled by the row's factor, times the weight's entry `(k, q)`. -/
theorem payload_apply (x0 : Vec Ideal S5000x256 .f32) (x1 : Vec Ideal S5000x1 .f32) (x2 : Vec Ideal S256x64 .f32)
    (p : Fin 5000) (q : Fin 64) :
    k0_pay1 (F := Ideal) x0 x1 x2 (ix2 p q)
      = ∑ k : Fin 256, (x0 (ix2 p k) * x1 (ix2 p (0 : Fin 1))) * x2 (ix2 k q) := by
  unfold k0_pay1
  rw [shapeCast_self, shapeCast_self]
  show FloatOps.matmul (DotDims.plain 5000 256 64) none _ _ (constant ⟨2, ![5000, 64]⟩ .f32 0x00000000#32) (ix2 p q) = _
  rw [RowDims.matmul_plain_zero_apply]
  refine Finset.sum_congr rfl fun k _ => ?_
  rw [mulf_apply]
  rw [broadcastTo_apply x1 broadcasts_S5000x1_S5000x256 (ix2 p k) (ix2 p (0 : Fin 1))
    (fun a => by match a with | ⟨0, _⟩ => rfl | ⟨1, _⟩ => rfl)]

/-- Row `p` of the block of rows a point `t` of the ten works on is row `5000 t + p` of the array. -/
abbrev rowAt (t : Fin 10) (p : Fin 5000) : Fin 50000 := ⟨5000 * t.val + p.val, by have := t.isLt; have := p.isLt; omega⟩

/-- When the three blocks a point reads are rows `5000 t …` of the first operand, the same rows of the column of
    row factors, and the whole weight, the body's product at `(p, q)` is the specification's entry `(5000 t + p, q)`. -/
theorem payload_eq_spec (A : Cert.Spec.Mat 50000 256) (n : Cert.Spec.Mat 50000 1) (W : Cert.Spec.Mat 256 64)
    (x0 : Vec Ideal S5000x256 .f32) (x1 : Vec Ideal S5000x1 .f32) (x2 : Vec Ideal S256x64 .f32) (t : Fin 10)
    (h0 : ∀ (p : Fin 5000) (k : Fin 256), x0 (ix2 p k) = A (ix2 (rowAt t p) k))
    (h1 : ∀ p : Fin 5000, x1 (ix2 p (0 : Fin 1)) = n (ix2 (rowAt t p) (0 : Fin 1)))
    (h2 : ∀ (k : Fin 256) (q : Fin 64), x2 (ix2 k q) = W (ix2 k q))
    (p : Fin 5000) (q : Fin 64) :
    k0_pay1 (F := Ideal) x0 x1 x2 (ix2 p q) = Cert.Spec.scaledProduct A n W (ix2 (rowAt t p) q) := by
  rw [payload_apply, Cert.Spec.scaledProduct_apply]
  unfold Cert.Spec.scaledProductAt
  refine Finset.sum_congr rfl fun k _ => ?_
  rw [h0, h1, h2]

/-- The printed index maps, decided once over the ten points: windows 0, 1 and 3 sit at block `(t, 0)`, window 2 at `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- A point of the grid as one of the ten. -/
abbrev pt (t : Fin cfg0.N) : Fin 10 := ⟨t.val, t.isLt.trans_eq N_0⟩

/-- Window 0's block at point `t` is rows `5000 t …` of the first operand. -/
theorem block0_apply (c : Dev nD) (t : Fin cfg0.N) (p : Fin 5000) (k : Fin 256) :
    (iblk0 V c 0 t : Vec Ideal S5000x256 .f32) (ix2 p k) = (V c main_arg0 : S50000x256.Idx → EReal) (ix2 (rowAt (pt t) p) k) := by
  obtain ⟨e0, e1, -⟩ := index_facts t
  unfold iblk0
  show V c main_arg0 (((cfg0.win 0).blk t).view.emb (ix2 p k)) = V c main_arg0 _
  congr 1
  funext a
  apply Fin.ext
  match a with
  | ⟨0, _⟩ => show win0_0.index t (0 : Fin 2) * 5000 + 1 * p.val = 5000 * t.val + p.val; omega
  | ⟨1, _⟩ => show win0_0.index t (1 : Fin 2) * 256 + 1 * k.val = k.val; omega

/-- Window 1's block at point `t` is rows `5000 t …` of the column of row factors. -/
theorem block1_apply (c : Dev nD) (t : Fin cfg0.N) (p : Fin 5000) :
    (iblk0 V c 1 t : Vec Ideal S5000x1 .f32) (ix2 p (0 : Fin 1))
      = (V c main_v33 : S50000x1.Idx → EReal) (ix2 (rowAt (pt t) p) (0 : Fin 1)) := by
  obtain ⟨-, -, e0, e1, -⟩ := index_facts t
  unfold iblk0
  show V c main_v33 (((cfg0.win 1).blk t).view.emb (ix2 p (0 : Fin 1))) = V c main_v33 _
  congr 1
  funext a
  apply Fin.ext
  match a with
  | ⟨0, _⟩ => show win0_1.index t (0 : Fin 2) * 5000 + 1 * p.val = 5000 * t.val + p.val; omega
  | ⟨1, _⟩ => show win0_1.index t (1 : Fin 2) * 1 + 1 * 0 = 0; omega

/-- Window 2's block at every point is the whole weight. -/
theorem block2_apply (c : Dev nD) (t : Fin cfg0.N) (k : Fin 256) (q : Fin 64) :
    (iblk0 V c 2 t : Vec Ideal S256x64 .f32) (ix2 k q) = (V c main_v15 : S256x64.Idx → EReal) (ix2 k q) := by
  obtain ⟨-, -, -, -, e0, e1, -⟩ := index_facts t
  unfold iblk0
  show V c main_v15 (((cfg0.win 2).blk t).view.emb (ix2 k q)) = V c main_v15 _
  congr 1
  funext a
  apply Fin.ext
  match a with
  | ⟨0, _⟩ => show win0_2.index t (0 : Fin 2) * 256 + 1 * k.val = k.val; omega
  | ⟨1, _⟩ => show win0_2.index t (1 : Fin 2) * 64 + 1 * q.val = q.val; omega

/-- The array the region leaves: the specification of the three arrays as the region finds them. -/
abbrev result (c : Dev nD) : S50000x64.Idx → EReal :=
  Cert.Spec.scaledProduct (V c main_arg0) (V c main_v33) (V c main_v15)

/-- What point `t` writes back is block `t` of the specification's array. -/
theorem flushed_eq (c : Dev nD) (t : Fin cfg0.N) :
    (dat0 (F := Ideal) V c).flushed 3 t = ((cfg0.win 3).blk t).view.read (Elt Ideal) (result V c) := by
  show (cfg0.win 3).cut (grid0.coords t) ((dat0 (F := Ideal) V c).after 3 t) = _
  rw [after0_3]
  unfold out0_3
  rw [View.canon_unit_zero zero_offsets]
  simp only [View.ld_unit_zero (S := S5000x256) zero_offsets, View.ld_unit_zero (S := S5000x1) zero_offsets,
    View.ld_unit_zero (S := S256x64) zero_offsets]
  obtain ⟨-, -, -, -, -, -, e0, e1⟩ := index_facts t
  show (k0_pay1 (F := Ideal) (iblk0 V c 0 t) (iblk0 V c 1 t) (iblk0 V c 2 t) : S5000x64.Idx → EReal)
    = fun j : S5000x64.Idx => result V c (((cfg0.win 3).blk t).view.emb j)
  funext j
  obtain ⟨p, q, rfl⟩ : ∃ (p : Fin 5000) (q : Fin 64), j = ix2 p q := ⟨j 0, j 1, eq_ix2 j⟩
  have hemb : ((cfg0.win 3).blk t).view.emb (ix2 p q) = (ix2 (rowAt (pt t) p) q : S50000x64.Idx) := by
    funext a
    apply Fin.ext
    match a with
    | ⟨0, _⟩ => show win0_3.index t (0 : Fin 2) * 5000 + 1 * p.val = 5000 * t.val + p.val; omega
    | ⟨1, _⟩ => show win0_3.index t (1 : Fin 2) * 64 + 1 * q.val = q.val; omega
  rw [hemb]
  exact payload_eq_spec (V c main_arg0) (V c main_v33) (V c main_v15) (iblk0 V c 0 t) (iblk0 V c 1 t) (iblk0 V c 2 t)
    (pt t) (block0_apply V c t) (block1_apply V c t) (block2_apply V c t) p q

/-- An index of the array is in point `t`'s block iff each coordinate is in the block's range on its axis. -/
theorem mem_block (t : Fin cfg0.N) (i : S50000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v34).slice (win0_3.rect t)).set ↔ _
  rw [View.set_slice_whole, Rect.mem_set_unit]
  exact Iff.rfl

/-- Every row of the array is in the block of the point `row / 5000`. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have ht : t.val = (i 0).val / 5000 := rfl
  obtain ⟨-, -, -, -, -, -, e0, e1⟩ := index_facts t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- Region 0's output array after its ten points: the rows of the first operand, each scaled by its row factor, times the weight. -/
theorem region0_final (c : Dev nD) :
    (dat0 (F := Ideal) V c).arrAt 3 cfg0.N
      = Cert.Spec.scaledProduct (V c main_arg0) (V c main_v33) (V c main_v15) :=
  (dat0 (F := Ideal) V c).arrAt_eq_of_cover 3 (result V c) (fun t _ => flushed_eq V c t) covered

end Cert.KernelIdeal.Val0

end
-- ==== Proof.Region1.lean ====
import proofs.«132637_j26998164422989_1_alg».proof.Proof.Gen.KernelIdeal.Frame
import proofs.«132637_j26998164422989_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The second dense piece: the array the scale-and-shift region leaves.

  The region walks ten row blocks of 5000 rows. At block `t` it holds rows `5000·t … 5000·t + 4999` of the
  first operand `X` and of the column of row factors `n`, and the one row of offsets `b`, and writes back, at the
  same rows, `X (r, q) · n (r, 0) + b (0, q)`. The ten blocks tile the 50000 rows, so the whole array ends as
  that function of the three arrays the region found on entry.
-/

set_option maxRecDepth 16384

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Val1

/-! ## One block: the value written at an entry -/

/-- The two zero offsets of a whole-block access, as the constant function. -/
theorem zero_offsets : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what one block's body writes: the block's entry times its row's factor plus the column's offset. -/
theorem payload_apply (x0 : Vec Ideal S5000x64 .f32) (x1 : Vec Ideal S5000x1 .f32) (x2 : Vec Ideal S1x64 .f32)
    (p : Fin 5000) (q : Fin 64) :
    k1_pay1 (F := Ideal) x0 x1 x2 (ix2 p q) = x0 (ix2 p q) * x1 (ix2 p (0 : Fin 1)) + x2 (ix2 (0 : Fin 1) q) := by
  unfold k1_pay1
  rw [addf_apply, mulf_apply, shapeCast_self, shapeCast_self, shapeCast_self,
    broadcastTo_a1_ab_apply, broadcastTo_1b_ab_apply]

/-! ## The ten blocks and the rows they hold -/

variable (V : (c : Dev nD) → (b : Ref sig .tc) → Buf (Elt Ideal) ((c : Thread nD τ).loc b))

/-- The block indices, decided over the ten points: at point `t` the first operand, the column of factors and the
    output are at row block `t`, column block `0`; the row of offsets is always at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is row `5000·t + p` of the array. -/
def row (t : Fin cfg1.N) (p : Fin 5000) : Fin 50000 :=
  ⟨t.val * 5000 + p.val, by have hN : cfg1.N = 10 := N_1; have := t.isLt; have := p.isLt; omega⟩

/-- Where the output's block `t` puts its entry `(p, q)`. -/
theorem out_emb (t : Fin cfg1.N) (p : Fin 5000) (q : Fin 64) :
    ((cfg1.win 3).blk t).view.emb (ix2 p q) = ix2 (row t p) q := by
  obtain ⟨-, -, -, -, -, -, e0, e1⟩ := block_indices t
  funext a; apply Fin.ext
  match a with
  | ⟨0, _⟩ => show win1_3.index t (0 : Fin 2) * 5000 + 1 * p.val = t.val * 5000 + p.val; omega
  | ⟨1, _⟩ => show win1_3.index t (1 : Fin 2) * 64 + 1 * q.val = q.val; omega

/-- Where the first operand's block `t` reads its entry `(p, q)`. -/
theorem in0_emb (t : Fin cfg1.N) (p : Fin 5000) (q : Fin 64) :
    ((cfg1.win 0).blk t).view.emb (ix2 p q) = ix2 (row t p) q := by
  obtain ⟨e0, e1, -, -, -, -, -, -⟩ := block_indices t
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- Where the factors' block `t` reads its entry `(p, 0)`. -/
theorem in1_emb (t : Fin cfg1.N) (p : Fin 5000) :
    ((cfg1.win 1).blk t).view.emb (ix2 p (0 : Fin 1)) = ix2 (row t p) (0 : Fin 1) := by
  obtain ⟨-, -, e0, e1, -, -, -, -⟩ := block_indices t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

/-- Where the offsets' one block reads its entry `(0, q)`. -/
theorem in2_emb (t : Fin cfg1.N) (q : Fin 64) :
    ((cfg1.win 2).blk t).view.emb (ix2 (0 : Fin 1) q) = ix2 (0 : Fin 1) q := by
  obtain ⟨-, -, -, -, e0, e1, -, -⟩ := block_indices t
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- Entry `(p, q)` of the first operand's block `t` is the array's entry at row `5000·t + p`. -/
theorem in0_apply (c : Dev nD) (t : Fin cfg1.N) (p : Fin 5000) (q : Fin 64) :
    iblk1 V c 0 t (ix2 p q) = (V c main_v44 : Cert.Spec.Mat 50000 64) (ix2 (row t p) q) := by
  show (V c main_v44 : Cert.Spec.Mat 50000 64) (((cfg1.win 0).blk t).view.emb (ix2 p q)) = _
  rw [in0_emb]

/-- Entry `(p, 0)` of the factors' block `t` is the factor of row `5000·t + p`. -/
theorem in1_apply (c : Dev nD) (t : Fin cfg1.N) (p : Fin 5000) :
    iblk1 V c 1 t (ix2 p (0 : Fin 1)) = (V c main_v66 : Cert.Spec.Mat 50000 1) (ix2 (row t p) (0 : Fin 1)) := by
  show (V c main_v66 : Cert.Spec.Mat 50000 1) (((cfg1.win 1).blk t).view.emb (ix2 p (0 : Fin 1))) = _
  rw [in1_emb]

/-- Entry `(0, q)` of the offsets' block is the offset of column `q`, at every point. -/
theorem in2_apply (c : Dev nD) (t : Fin cfg1.N) (q : Fin 64) :
    iblk1 V c 2 t (ix2 (0 : Fin 1) q) = (V c main_v47 : Cert.Spec.Mat 1 64) (ix2 (0 : Fin 1) q) := by
  show (V c main_v47 : Cert.Spec.Mat 1 64) (((cfg1.win 2).blk t).view.emb (ix2 (0 : Fin 1) q)) = _
  rw [in2_emb]

/-- WHAT POINT `t` WRITES BACK is block `t` of the scaled and shifted array. -/
theorem flushed_eq (c : Dev nD) (t : Fin cfg1.N) :
    (dat1 (F := Ideal) V c).flushed 3 t
      = ((cfg1.win 3).blk t).view.read (Elt Ideal)
          (Cert.Spec.scaleShift (V c main_v44) (V c main_v66) (V c main_v47)) := by
  show (cfg1.win 3).cut (grid1.coords t) ((dat1 (F := Ideal) V c).after 3 t) = _
  rw [after1_3]
  unfold out1_3
  rw [View.canon_unit_zero zero_offsets]
  simp only [View.ld_unit_zero (S := S5000x64) zero_offsets, View.ld_unit_zero (S := S5000x1) zero_offsets,
    View.ld_unit_zero (S := S1x64) zero_offsets]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = Cert.Spec.scaleShift (V c main_v44) (V c main_v66) (V c main_v47) (((cfg1.win 3).blk t).view.emb (ix2 p q))
  rw [payload_apply, out_emb, Cert.Spec.scaleShift_apply, in0_apply, in1_apply, in2_apply]
  rfl

/-- An index of the array is in point `t`'s block iff each coordinate is in the block's range on its axis. -/
theorem mem_blk (t : Fin cfg1.N) (i : S50000x64.Idx) :
    i ∈ ((cfg1.win 3).blk t).view.set
      ↔ ∀ a : Fin 2, win1_3.index t a * S5000x64.size a ≤ (i a).val
          ∧ (i a).val < win1_3.index t a * S5000x64.size a + S5000x64.size a := by
  show i ∈ ((View.whole main_v67).slice (win1_3.rect t)).set ↔ _
  rw [View.set_slice_whole, Rect.mem_set_unit]
  exact Iff.rfl

/-- The ten blocks tile the array: row `r` lies in block `r / 5000`. -/
theorem cover (i : S50000x64.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 64 := (i 1).isLt
  obtain ⟨t, ht⟩ : ∃ t : Fin cfg1.N, t.val = (i 0).val / 5000 := ⟨⟨(i 0).val / 5000, by omega⟩, rfl⟩
  refine ⟨t, flush1_3 t, ?_⟩
  rw [mem_blk]
  obtain ⟨-, -, -, -, -, -, e0, e1⟩ := block_indices t
  intro a
  match a with
  | ⟨0, _⟩ =>
    show win1_3.index t (0 : Fin 2) * 5000 ≤ (i 0).val ∧ (i 0).val < win1_3.index t (0 : Fin 2) * 5000 + 5000
    rw [e0]; omega
  | ⟨1, _⟩ =>
    show win1_3.index t (1 : Fin 2) * 64 ≤ (i 1).val ∧ (i 1).val < win1_3.index t (1 : Fin 2) * 64 + 64
    rw [e1]; omega

/-! ## The whole array -/

/-- Region 1's output array after its ten points: each row of the first operand scaled by its row factor, plus the row vector of offsets. -/
theorem region1_final (c : Dev nD) :
    (dat1 (F := Ideal) V c).arrAt 3 cfg1.N
      = Cert.Spec.scaleShift (V c main_v44) (V c main_v66) (V c main_v47) :=
  (dat1 (F := Ideal) V c).arrAt_eq_of_cover 3 _ (fun t _ => flushed_eq V c t) cover

end Cert.KernelIdeal.Val1

end
-- ==== Proof.HostStages.lean ====
/-
  What the host operations around the two regions leave in the buffers the regions read, and in the scalar
  result, written with the reference's own stage functions: the host operations of the two programs are the same
  operations on the same arguments (the degree counts by scatter-add of ones, their clip at one and power −1/2,
  the sampled weight and bias, the row gather along the edges' sources and the scatter-add along their targets, the
  two Gaussian divergences), so each buffer below IS the corresponding stage of the reference, and no stage is opened.
  Every statement holds for any float values: nothing here uses a law of the arithmetic.

  The row factors reach the regions as [50000, 1] columns (a reshape of the length-50000 vector), where the reference
  broadcasts the vector along the rows: entry (p, 0) of the column is entry p of the vector.
-/
import proofs.«132637_j26998164422989_1_alg».proof.Proof.Gen.KernelIdeal.Frame
import proofs.«132637_j26998164422989_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

variable {F : FTy → Type} [FloatOps F]
variable (m : (ℓ : Loc nD τ sig) → Buf (Elt F) ℓ) (ρ : Dev nD → PrngReg) (c : Dev nD)

/-! ## Before region 0 -/

/-- The node features reach region 0 as launched. -/
theorem feat_in : W5 m ρ c (Proc.devRef .tc main_arg0) = m ((c : Thread nD τ).loc main_arg0) := by
  after_results_simp <;> rfl

/-- The sampled weight: mean plus exp(log-deviation) times the noise. -/
theorem weight_in : W5 m ρ c (Proc.devRef .tc main_v15) = val_main_v15 (F := F) (m ((c : Thread nD τ).loc main_arg1)) (m ((c : Thread nD τ).loc main_arg2)) (m ((c : Thread nD τ).loc main_arg9)) := by
  after_results_simp <;> rfl

/-- The out-degree factors as a length-50000 vector, before their reshape to a column. -/
theorem outFactor_vec : W4 m ρ c (Proc.devRef .tc main_v9) = val_main_v9 (F := F) (m ((c : Thread nD τ).loc main_arg11)) := by
  after_results_simp <;> rfl

/-- The column region 0 reads is the reshape of that vector. -/
theorem outFactor_reshape : W5 m ρ c (Proc.devRef .tc main_v33)
    = shapeCast S50000x1 (W4 m ρ c (Proc.devRef .tc main_v9)) shapeCasts_S50000_S50000x1 := by
  after_results_simp <;> rfl

/-- Entry (p, 0) of the out-degree column is entry p of the vector of factors. -/
theorem outFactor_col (p : Fin 50000) :
    W5 m ρ c (Proc.devRef .tc main_v33) (ix2 p (0 : Fin 1)) = val_main_v9 (F := F) (m ((c : Thread nD τ).loc main_arg11)) (ix1 p) := by
  rw [outFactor_reshape, outFactor_vec]
  exact shapeCast_apply (s := S50000) (t := S50000x1) _ _ (ix2 p (0 : Fin 1)) (ix1 p) (by
    show ((⟨1, ![50000]⟩ : Shape).rowMajor (ix1 p)).val = ((⟨2, ![50000, 1]⟩ : Shape).rowMajor (ix2 p (0 : Fin 1))).val
    rw [Shape.rowMajor_val_one, Shape.rowMajor_val_two]
    show p.val = p.val * 1 + 0
    omega)

/-! ## Between the regions: what region 0 does not write stays as region 0 found it -/

theorem src_mid : W6 m ρ c (Proc.devRef .tc main_arg11) = m ((c : Thread nD τ).loc main_arg11) := by
  rw [W6_of_ne m ρ c main_arg11 (by decide)]; after_results_simp <;> rfl
theorem dst_mid : W6 m ρ c (Proc.devRef .tc main_arg12) = m ((c : Thread nD τ).loc main_arg12) := by
  rw [W6_of_ne m ρ c main_arg12 (by decide)]; after_results_simp <;> rfl
theorem biasMu_mid : W6 m ρ c (Proc.devRef .tc main_arg5) = m ((c : Thread nD τ).loc main_arg5) := by
  rw [W6_of_ne m ρ c main_arg5 (by decide)]; after_results_simp <;> rfl
theorem biasLogsd_mid : W6 m ρ c (Proc.devRef .tc main_arg6) = m ((c : Thread nD τ).loc main_arg6) := by
  rw [W6_of_ne m ρ c main_arg6 (by decide)]; after_results_simp <;> rfl
theorem biasPriorMu_mid : W6 m ρ c (Proc.devRef .tc main_arg7) = m ((c : Thread nD τ).loc main_arg7) := by
  rw [W6_of_ne m ρ c main_arg7 (by decide)]; after_results_simp <;> rfl
theorem biasPriorLogsd_mid : W6 m ρ c (Proc.devRef .tc main_arg8) = m ((c : Thread nD τ).loc main_arg8) := by
  rw [W6_of_ne m ρ c main_arg8 (by decide)]; after_results_simp <;> rfl
theorem epsB_mid : W6 m ρ c (Proc.devRef .tc main_arg10) = m ((c : Thread nD τ).loc main_arg10) := by
  rw [W6_of_ne m ρ c main_arg10 (by decide)]; after_results_simp <;> rfl

/-- The in-degree factors as a length-50000 vector. -/
theorem inFactor_vec : W6 m ρ c (Proc.devRef .tc main_v12) = val_main_v46 (F := F) (m ((c : Thread nD τ).loc main_arg12)) := by
  rw [W6_of_ne m ρ c main_v12 (by decide)]; after_results_simp <;> rfl

/-- The weight's divergence from its prior, summed. -/
theorem weightKl_mid : W6 m ρ c (Proc.devRef .tc main_v32)
    = val_main_v32 (F := F) (m ((c : Thread nD τ).loc main_arg1)) (m ((c : Thread nD τ).loc main_arg2)) (m ((c : Thread nD τ).loc main_arg3)) (m ((c : Thread nD τ).loc main_arg4)) := by
  rw [W6_of_ne m ρ c main_v32 (by decide)]; after_results_simp <;> rfl

/-! ## Before region 1 -/

/-- The aggregated rows region 1 reads: region 0's output gathered along the edges' sources and scatter-added along
    their targets — the reference's gather and scatter-add stages, applied to whatever region 0 left. -/
theorem aggregated_in : W7 m ρ c (Proc.devRef .tc main_v44)
    = Host.scatterAdd Cert.ReferenceIdeal.scatter_S50000x64_S800000x1_S800000x64_1_0_0_1 (val_main_v41 (F := F))
        (val_main_v42 (F := F) (m ((c : Thread nD τ).loc main_arg12)))
        (Host.gather Cert.ReferenceIdeal.gather_S50000x64_S800000x1_S800000x64_1_0_n_n_0_1_164
          (W6 m ρ c (Proc.devRef .tc main_v34)) (val_main_v39 (F := F) (m ((c : Thread nD τ).loc main_arg11)))) := by
  after_results_simp
  rw [src_mid, dst_mid]
  rfl

/-- Once region 0's output is known to be the reference's product stage, the aggregated rows are the reference's
    scatter-add stage. -/
theorem aggregated_of
    (h : W6 m ρ c (Proc.devRef .tc main_v34)
      = val_main_v33 (F := F) (m ((c : Thread nD τ).loc main_arg0)) (m ((c : Thread nD τ).loc main_arg1)) (m ((c : Thread nD τ).loc main_arg2)) (m ((c : Thread nD τ).loc main_arg9)) (m ((c : Thread nD τ).loc main_arg11))) :
    W7 m ρ c (Proc.devRef .tc main_v44)
      = val_main_v43 (F := F) (m ((c : Thread nD τ).loc main_arg0)) (m ((c : Thread nD τ).loc main_arg1)) (m ((c : Thread nD τ).loc main_arg2)) (m ((c : Thread nD τ).loc main_arg9)) (m ((c : Thread nD τ).loc main_arg11)) (m ((c : Thread nD τ).loc main_arg12)) := by
  rw [aggregated_in, h]
  rfl

/-- The column region 1 reads is the reshape of the vector of in-degree factors. -/
theorem inFactor_reshape : W7 m ρ c (Proc.devRef .tc main_v66)
    = shapeCast S50000x1 (W6 m ρ c (Proc.devRef .tc main_v12)) shapeCasts_S50000_S50000x1 := by
  after_results_simp <;> rfl

/-- Entry (p, 0) of the in-degree column is entry p of the vector of factors. -/
theorem inFactor_col (p : Fin 50000) :
    W7 m ρ c (Proc.devRef .tc main_v66) (ix2 p (0 : Fin 1)) = val_main_v46 (F := F) (m ((c : Thread nD τ).loc main_arg12)) (ix1 p) := by
  rw [inFactor_reshape, inFactor_vec]
  exact shapeCast_apply (s := S50000) (t := S50000x1) _ _ (ix2 p (0 : Fin 1)) (ix1 p) (by
    show ((⟨1, ![50000]⟩ : Shape).rowMajor (ix1 p)).val = ((⟨2, ![50000, 1]⟩ : Shape).rowMajor (ix2 p (0 : Fin 1))).val
    rw [Shape.rowMajor_val_one, Shape.rowMajor_val_two]
    show p.val = p.val * 1 + 0
    omega)

/-- The sampled bias. -/
theorem bias_in : W7 m ρ c (Proc.devRef .tc main_v47) = val_main_v52 (F := F) (m ((c : Thread nD τ).loc main_arg5)) (m ((c : Thread nD τ).loc main_arg6)) (m ((c : Thread nD τ).loc main_arg10)) := by
  after_results_simp
  rw [biasMu_mid, biasLogsd_mid, epsB_mid]
  rfl

/-! ## The scalar result -/

/-- The sum of the two divergences: region 1 does not write it, and the host operations between the regions are the
    reference's. -/
theorem kl_out : W8 m ρ c (Proc.devRef .tc main_v65)
    = val_main_v70 (F := F) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W8_of_ne m ρ c main_v65 (by decide)]
  after_results_simp
  rw [weightKl_mid, biasMu_mid, biasLogsd_mid, biasPriorMu_mid, biasPriorLogsd_mid]
  rfl

end Cert.KernelIdeal.Host

end
-- ==== Proof.Bridge.lean ====
/-
  The kernel's two results are the reference's two results, as functions of the launch memory.

  * Region 0 leaves `scaledProduct feat n W`: entry (p, q) is the sum over k of (feat (p, k) · n (p, 0)) · W (k, q), with
    `n` the column of out-degree factors and `W` the sampled weight. The reference multiplies `feat` by the factors
    broadcast along the rows and contracts with `W`: at entry (p, q) the same sum, term by term, because the
    broadcast factor at (p, k) is the factor of row p. No law of the arithmetic is used beyond reading both sums.
  * The gather along the edges' sources and the scatter-add along their targets are the same host operations on
    both sides, applied to equal arrays.
  * Region 1 leaves `scaleShift agg n' b`: entry (p, q) is agg (p, q) · n' (p, 0) + b (0, q), with `n'` the column of
    in-degree factors and `b` the sampled bias; the reference multiplies by the broadcast factors and adds the broadcast
    bias: the same expression at every entry.
  * The scalar result is computed by host operations only, the same on both sides.
-/
import proofs.«132637_j26998164422989_1_alg».proof.Proof.Region0
import proofs.«132637_j26998164422989_1_alg».proof.Proof.Region1
import proofs.«132637_j26998164422989_1_alg».proof.Proof.HostStages
import proofs.«132637_j26998164422989_1_alg».proof.Proof.KRun
import proofs.«132637_j26998164422989_1_alg».proof.Proof.Spec
import Idealize.ShloMosaic.Lib.ValueIdx
import Idealize.ShloMosaic.PureOps.Ideal.Laws

set_option maxRecDepth 16384

noncomputable section

open scoped BigOperators

namespace Cert.KernelIdeal.Bridge

open Cert.KernelIdeal Cert.KernelIdeal.Gen Cert.KernelIdeal.Host
open Idealize.ShloMosaic Idealize.ShloMosaic.TcCoe Idealize.SL.Sem
open Idealize.ShloMosaic.ValueIdx
open Cert.ReferenceIdeal.Read

variable (m : (ℓ : Loc nD τ sig) → Buf (Elt Ideal) ℓ) (ρ : Dev nD → PrngReg) (c : Dev nD)

/-- Region 0's output array is the reference's product stage: entry (p, q) of both is the sum over k of
    (feat (p, k) · factor p) · W (k, q). -/
theorem product_out : W6 m ρ c (Proc.devRef .tc main_v34)
    = val_main_v33 (F := Ideal) (m ((c : Thread nD τ).loc main_arg0)) (m ((c : Thread nD τ).loc main_arg1)) (m ((c : Thread nD τ).loc main_arg2)) (m ((c : Thread nD τ).loc main_arg9)) (m ((c : Thread nD τ).loc main_arg11)) := by
  refine (W6_arr m ρ c 3).trans ?_
  rw [Val0.region0_final (V5 m ρ) c]
  refine funext fun (i : S50000x64.Idx) => ?_
  obtain ⟨p, q, rfl⟩ : ∃ (p : Fin 50000) (q : Fin 64), i = ix2 p q := ⟨i 0, i 1, eq_ix2 i⟩
  rw [Cert.Spec.scaledProduct_apply, val_main_v33_apply]
  unfold Cert.Spec.scaledProductAt
  refine Finset.sum_congr rfl fun k _ => ?_
  -- the reference reads its left operand at (p, k) and its right operand at (k, q)
  have hl : lidx_main_v33 (ix2 p q) k = ix2 p k := funext fun a => match a with | ⟨0, _⟩ => rfl | ⟨1, _⟩ => rfl
  have hr : ridx_main_v33 (ix2 p q) k = ix2 k q := funext fun a => match a with | ⟨0, _⟩ => rfl | ⟨1, _⟩ => rfl
  -- the factor broadcast along row p, read at (p, k), is the factor of row p
  have hn : idx_main_v10 (idx_main_v11 (ix2 p k)) = ix1 p := funext fun a => match a with | ⟨0, _⟩ => rfl
  rw [hl, hr, val_main_v12_apply, val_main_v11_apply, val_main_v10_apply, hn]
  rw [show V5 m ρ c main_arg0 = m ((c : Thread nD τ).loc main_arg0) from feat_in m ρ c,
    show V5 m ρ c main_v15 = _ from weight_in m ρ c,
    show V5 m ρ c main_v33 (ix2 p (0 : Fin 1)) = _ from outFactor_col m ρ c p]
  rfl

/-- The rows region 1 reads are the reference's aggregated rows. -/
theorem aggregated : W7 m ρ c (Proc.devRef .tc main_v44)
    = val_main_v43 (F := Ideal) (m ((c : Thread nD τ).loc main_arg0)) (m ((c : Thread nD τ).loc main_arg1)) (m ((c : Thread nD τ).loc main_arg2)) (m ((c : Thread nD τ).loc main_arg9)) (m ((c : Thread nD τ).loc main_arg11)) (m ((c : Thread nD τ).loc main_arg12)) :=
  aggregated_of m ρ c (product_out m ρ c)

/-- The kernel's array result is the reference's: entry (p, q) of both is agg (p, q) · factor' p + bias q. -/
theorem result_out : W8 m ρ c (Proc.devRef .tc main_v67)
    = val_main_v72 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) := by
  refine (W8_arr m ρ c 3).trans ?_
  rw [Val1.region1_final (V7 m ρ) c]
  refine funext fun (i : S50000x64.Idx) => ?_
  obtain ⟨p, q, rfl⟩ : ∃ (p : Fin 50000) (q : Fin 64), i = ix2 p q := ⟨i 0, i 1, eq_ix2 i⟩
  rw [Cert.Spec.scaleShift_apply, val_main_v72_apply, val_main_v49_apply, val_main_v48_apply, val_main_v47_apply,
    val_main_v71_apply]
  unfold Cert.Spec.scaleShiftAt
  -- the factor broadcast along row p, read at (p, q), is the factor of row p; the bias broadcast down column q is bias q
  have h1 : idx_main_v47 (idx_main_v48 (ix2 p q)) = ix1 p := funext fun a => match a with | ⟨0, _⟩ => rfl
  have h2 : idx_main_v71 (ix2 p q) = ix2 (0 : Fin 1) q := funext fun a => match a with | ⟨0, _⟩ => rfl | ⟨1, _⟩ => rfl
  rw [h1, h2]
  rw [show V7 m ρ c main_v44 = _ from aggregated m ρ c,
    show V7 m ρ c main_v66 (ix2 p (0 : Fin 1)) = _ from inFactor_col m ρ c p,
    show V7 m ρ c main_v47 = _ from bias_in m ρ c]
  rfl

/-- The kernel's run with its results named: every weakly fair execution terminates, nothing faulting, the array result
    at the reference's last stage of the launch memory, the scalar result at the reference's scalar stage, the
    arguments as launched. -/
theorem value_run : θ_run defs (onTc (τ := τ) (main (F := Ideal))) ⟨m, fun _ => 0, ρ⟩ (fun r => ∀ c : Dev nD,
      r.2.mem ((c.tc : Thread nD τ).loc main_v67)
        = val_main_v72 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12))
      ∧ r.2.mem ((c.tc : Thread nD τ).loc main_v65)
        = val_main_v70 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v67 (by decide))).trans (result_out m ρ c),
      (h c _ (mem_uc main_v65 (by decide))).trans (kl_out m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c)⟩)
    (Cert.KernelIdeal.GenRun.run_all (F := Ideal) m ρ)

end Cert.KernelIdeal.Bridge

end
-- ==== Proof.lean ====
/-
  The certificate of a Bayesian graph convolution: the kernel's program against its jnp reference, over the extended reals.

  Both programs compute, from node features `feat` [50000, 256], a sampled weight `W = μ + exp(σ) · ε` [256, 64], a sampled
  bias `b` [1, 64] and the edges' sources and targets, the array
      out (p, q) = agg (p, q) · d_in(p)^(−1/2) + b (0, q),   agg = scatter-add over targets of the gathered rows of h,
      h (p, q) = Σ_k (feat (p, k) · d_out(p)^(−1/2)) · W (k, q),
  (`d_out`, `d_in`: the degree counts clipped below at one) and the scalar sum of the two Gaussian divergences of the
  weight and the bias from their priors. The kernel computes `h` and `out` in two grid regions of ten row blocks each
  and everything else by the same host operations as the reference, on the same arguments; the two dense pieces are
  the same functions entry by entry (Proof/Region0.lean, Proof/Region1.lean against Proof/Spec.lean; Proof/Bridge.lean
  reads the reference's stages at an entry), and the host stages are never opened (Proof/HostStages.lean). No law of
  extended-real arithmetic is needed: the two sides are the same expression at every entry, so the precondition
  (finite inputs) is not used.

  The three frames: the kernel's two are the generated frame certificates; the reference's is its generated run with
  the results dropped. The idealization rewrote no operation, so `preserves` is `True`.
-/
import proofs.«132637_j26998164422989_1_alg».proof.Defs
import proofs.«132637_j26998164422989_1_alg».proof.Proof.Gen.Kernel
import proofs.«132637_j26998164422989_1_alg».proof.Proof.Gen.Kernel.Skeleton
import proofs.«132637_j26998164422989_1_alg».proof.Proof.Gen.Kernel.Launch
import proofs.«132637_j26998164422989_1_alg».proof.Proof.Gen.Kernel.Points
import proofs.«132637_j26998164422989_1_alg».proof.Proof.Gen.Kernel.Frame
import proofs.«132637_j26998164422989_1_alg».proof.Proof.Gen.KernelIdeal
import proofs.«132637_j26998164422989_1_alg».proof.Proof.Gen.KernelIdeal.Skeleton
import proofs.«132637_j26998164422989_1_alg».proof.Proof.Gen.KernelIdeal.Launch
import proofs.«132637_j26998164422989_1_alg».proof.Proof.Gen.KernelIdeal.Points
import proofs.«132637_j26998164422989_1_alg».proof.Proof.Gen.KernelIdeal.Frame
import proofs.«132637_j26998164422989_1_alg».proof.Proof.Gen.ReferenceIdeal
import proofs.«132637_j26998164422989_1_alg».proof.Proof.Gen.ReferenceIdeal.Run
import proofs.«132637_j26998164422989_1_alg».proof.Proof.Gen.ReferenceIdeal.Read
import proofs.«132637_j26998164422989_1_alg».proof.Proof.Gen.Pre_finite_inputs
import proofs.«132637_j26998164422989_1_alg».proof.Proof.Bridge
import Idealize.ShloMosaic.Adequacy
import Idealize.ShloMosaic.Init

noncomputable section

namespace Cert.Proof

open Idealize.ShloMosaic Idealize.SL.Sem

/-- The word-level kernel runs, and its arguments end unchanged: the generated frame certificate. -/
theorem frame_kernel : Cert.frame_Kernel := fun m ρ _ => Cert.Kernel.Gen.frame m ρ

/-- The idealized kernel runs, and its arguments end unchanged: the generated frame certificate. -/
theorem frame_kernelIdeal : Cert.frame_KernelIdeal := fun m ρ _ => Cert.KernelIdeal.Gen.frame m ρ

/-- The reference runs, and its arguments end unchanged: its generated run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the reference's last stages of those arguments:
    the kernel by its value run, the reference by its generated run read back stage by stage. -/
theorem algebraic : Cert.algebraic_KernelIdeal_ReferenceIdeal := by
  intro m ρ m' ρ' _ hagree
  refine ⟨fun c => Cert.ReferenceIdeal.Read.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v70 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Bridge.value_run m ρ, ?_⟩
  refine (θ_run Cert.ReferenceIdeal.defs _ _).mono (fun r h c => ?_) (Cert.ReferenceIdeal.Value.run (F := Ideal) m' ρ')
  obtain ⟨h0, h1, hkept⟩ := h c
  obtain ⟨e0, e1, e2, e3, e4, e5, e6, e7, e8, e9, e10, e11, e12⟩ := hagree c
  refine ⟨h0.trans ((Cert.ReferenceIdeal.Read.val_main_v72_eq _ _ _ _ _ _ _ _ _).trans ?_),
    h1.trans ((Cert.ReferenceIdeal.Read.val_main_v70_eq _ _ _ _ _ _ _ _).trans ?_), hkept⟩
  · rw [e0, e1, e2, e5, e6, e9, e10, e11, e12]
  · rw [e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
